-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S4096x256x256 : Shape := ⟨3, ![4096, 256, 256]⟩
abbrev S128x128 : Shape := ⟨2, ![128, 128]⟩
abbrev S128x256 : Shape := ⟨2, ![128, 256]⟩
abbrev S128x128x256 : Shape := ⟨3, ![128, 128, 256]⟩
abbrev S128x128x1 : Shape := ⟨3, ![128, 128, 1]⟩
abbrev S128x1x256 : Shape := ⟨3, ![128, 1, 256]⟩
abbrev S4096x65536 : Shape := ⟨2, ![4096, 65536]⟩

abbrev nBuf : Space → Nat
  | .hbm => 4
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256x256, .f32⟩
  | .hbm, ⟨3, _⟩ => ⟨S4096x65536, .f32⟩
  | .local _ .vmem, ⟨0, _⟩ => ⟨S128x128, .f32⟩
  | .local _ .vmem, ⟨1, _⟩ => ⟨S128x128, .f32⟩
  | .local _ .vmem, ⟨2, _⟩ => ⟨S128x256, .f32⟩
  | .local _ .vmem, ⟨3, _⟩ => ⟨S128x256, .f32⟩
  | .local _ .vmem, ⟨4, _⟩ => ⟨S128x128x256, .f32⟩
  | .local _ .vmem, ⟨5, _⟩ => ⟨S128x128x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x128_S128x128_0_0 : ∀ a, (![0, 0] : Fin 2 → Nat) a + S128x128.size a ≤ S128x128.size a
  h_S128x128 : 0 < S128x128.numel
  inb_S128x256_S128x256_0_0 : ∀ a, (![0, 0] : Fin 2 → Nat) a + S128x256.size a ≤ S128x256.size a
  h_S128x256 : 0 < S128x256.numel
  shapeCasts_S128x128_S128x128x1 : S128x128.ShapeCasts S128x128x1
  shapeCasts_S128x256_S128x1x256 : S128x256.ShapeCasts S128x1x256
  broadcasts_S128x128x1_S128x128x256 : S128x128x1.Broadcasts S128x128x256
  broadcasts_S128x1x256_S128x128x256 : S128x1x256.Broadcasts S128x128x256
  inb_S128x128x256_S128x128x256_0_0_0 : ∀ a, (![0, 0, 0] : Fin 3 → Nat) a + S128x128x256.size a ≤ S128x128x256.size a
  h_S128x128x256 : 0 < S128x128x256.numel
  shapeCasts_S4096x256x256_S4096x65536 : S4096x256x256.ShapeCasts S4096x65536
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x256.size a
  hwx0_0 : ∀ i : grid0.Coords, EltTy.bits .f32 = 32 ∨ (Rect.block (s := S4096x256) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S4096x256.size a
  hwx0_1 : ∀ i : grid0.Coords, EltTy.bits .f32 = 32 ∨ (Rect.block (s := S4096x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128x256.size a ≤ S4096x256x256.size a
  hwx0_2 : ∀ i : grid0.Coords, EltTy.bits .f32 = 32 ∨ (Rect.block (s := S4096x256x256) S128x128x256.size (cc0_transform_2 i) (hinb0_2 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x256x1 : Shape := ⟨3, ![4096, 256, 1]⟩
abbrev S4096x1x256 : Shape := ⟨3, ![4096, 1, 256]⟩
abbrev S4096x256x256 : Shape := ⟨3, ![4096, 256, 256]⟩
abbrev S4096x65536 : Shape := ⟨2, ![4096, 65536]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256x1, .f32⟩
  | .hbm, ⟨3, _⟩ => ⟨S4096x1x256, .f32⟩
  | .hbm, ⟨4, _⟩ => ⟨S4096x256x256, .f32⟩
  | .hbm, ⟨5, _⟩ => ⟨S4096x256x256, .f32⟩
  | .hbm, ⟨6, _⟩ => ⟨S4096x256x256, .f32⟩
  | .hbm, ⟨7, _⟩ => ⟨S4096x65536, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S4096x256_S4096x256x1_0_1 : S4096x256.BroadcastsInDim S4096x256x1 (![0, 1] : Fin 2 → Fin S4096x256x1.rank)
  bcast_S4096x256_S4096x1x256_0_2 : S4096x256.BroadcastsInDim S4096x1x256 (![0, 2] : Fin 2 → Fin S4096x1x256.rank)
  bcast_S4096x256x1_S4096x256x256_0_1_2 : S4096x256x1.BroadcastsInDim S4096x256x256 (![0, 1, 2] : Fin 3 → Fin S4096x256x256.rank)
  bcast_S4096x1x256_S4096x256x256_0_1_2 : S4096x1x256.BroadcastsInDim S4096x256x256 (![0, 1, 2] : Fin 3 → Fin S4096x256x256.rank)
  shapeCasts_S4096x256x256_S4096x65536 : S4096x256x256.ShapeCasts S4096x65536

variable [Facts₀]

class Facts : Prop extends Facts₀ where

variable [Facts]
-- ==== Proof.OuterSpec.lean ====
/-
  The batched outer product, as one function of its two arguments.

  For row arrays `x` and `y` of shape [4096, 256], the cube `outer x y` of shape [4096, 256, 256] holds at
  (i, a, b) the product `x[i, a] · y[i, b]`; the result of both programs is that cube laid out row-major as
  [4096, 256·256]. Nothing here depends on the float instance: the only arithmetic is one multiplication per
  element, so no law of the extended reals (and no finiteness of the inputs) is needed.

  Also here: the same product one block at a time — a [128, 128] block of `x` given a trailing unit axis, a
  [128, 256] block of `y` given a middle unit axis, both broadcast to [128, 128, 256] and multiplied — read at an index.
-/
import Idealize.ShloMosaic.Lib.ValueIdx
import Idealize.ShloMosaic.Lib.Pipeline.Value

noncomputable section

namespace Cert.Outer

open Idealize.ShloMosaic Idealize.ShloMosaic.ValueIdx

variable {F : FTy → Type} [FloatOps F]

/-- The argument arrays' shape, the cube's, and the flattened result's. -/
abbrev Rows : Shape := ⟨2, ![4096, 256]⟩
abbrev Cube : Shape := ⟨3, ![4096, 256, 256]⟩
abbrev Flat : Shape := ⟨2, ![4096, 65536]⟩

/-- `outer x y (i, a, b) = x (i, a) · y (i, b)`. -/
def outer (x y : Rows.Idx → Elt F .f32) : Cube.Idx → Elt F .f32 :=
  fun i => FloatOps.mulf (x (ix2 (i 0) (i 1))) (y (ix2 (i 0) (i 2)))

/-- The cube laid out as [4096, 65536]: what both programs return. -/
def flatOuter (h : Cube.ShapeCasts Flat) (x y : Rows.Idx → Elt F .f32) : Flat.Idx → Elt F .f32 :=
  shapeCast Flat (outer x y) h

/-! ## One block of the product -/

abbrev BlkX : Shape := ⟨2, ![128, 128]⟩
abbrev BlkY : Shape := ⟨2, ![128, 256]⟩
abbrev BlkX1 : Shape := ⟨3, ![128, 128, 1]⟩
abbrev BlkY1 : Shape := ⟨3, ![128, 1, 256]⟩
abbrev BlkO : Shape := ⟨3, ![128, 128, 256]⟩

/-- A block of `x` with a trailing unit axis, broadcast along it, reads `x` at the first two coordinates. -/
theorem bcastX_apply (x0 : BlkX.Idx → Elt F .f32) (h1 : BlkX.ShapeCasts BlkX1) (h3 : BlkX1.Broadcasts BlkO) (j : BlkO.Idx) :
    broadcastTo BlkO (shapeCast BlkX1 x0 h1) h3 j = x0 (ix2 (j 0) (j 1)) := by
  rw [broadcastTo_apply (shapeCast BlkX1 x0 h1) h3 j (ix3 (j 0) (j 1) ⟨0, Nat.one_pos⟩) (fun a => match a with
    | ⟨0, _⟩ => by show (j 0).val = if (128 : Nat) = 1 then 0 else (j 0).val; rw [if_neg (by decide)]
    | ⟨1, _⟩ => by show (j 1).val = if (128 : Nat) = 1 then 0 else (j 1).val; rw [if_neg (by decide)]
    | ⟨2, _⟩ => by show 0 = if (1 : Nat) = 1 then 0 else (j 2).val; rw [if_pos rfl])]
  exact shapeCast_apply x0 h1 _ (ix2 (j 0) (j 1))
    (by rewrite [Shape.rowMajor_val_three, Shape.rowMajor_val_two]
        show (j 0).val * 128 + (j 1).val = ((j 0).val * 128 + (j 1).val) * 1 + 0; omega)

/-- A block of `y` with a middle unit axis, broadcast along it, reads `y` at the first and last coordinates. -/
theorem bcastY_apply (x1 : BlkY.Idx → Elt F .f32) (h2 : BlkY.ShapeCasts BlkY1) (h4 : BlkY1.Broadcasts BlkO) (j : BlkO.Idx) :
    broadcastTo BlkO (shapeCast BlkY1 x1 h2) h4 j = x1 (ix2 (j 0) (j 2)) := by
  rw [broadcastTo_apply (shapeCast BlkY1 x1 h2) h4 j (ix3 (j 0) ⟨0, Nat.one_pos⟩ (j 2)) (fun a => match a with
    | ⟨0, _⟩ => by show (j 0).val = if (128 : Nat) = 1 then 0 else (j 0).val; rw [if_neg (by decide)]
    | ⟨1, _⟩ => by show 0 = if (1 : Nat) = 1 then 0 else (j 1).val; rw [if_pos rfl]
    | ⟨2, _⟩ => by show (j 2).val = if (256 : Nat) = 1 then 0 else (j 2).val; rw [if_neg (by decide)])]
  exact shapeCast_apply x1 h2 _ (ix2 (j 0) (j 2))
    (by rewrite [Shape.rowMajor_val_three, Shape.rowMajor_val_two]
        show (j 0).val * 256 + (j 2).val = ((j 0).val * 1 + 0) * 256 + (j 2).val; omega)

/-- The block product at an index: the block of `x` at (p, a) times the block of `y` at (p, b). -/
theorem blockProduct_apply (x0 : BlkX.Idx → Elt F .f32) (x1 : BlkY.Idx → Elt F .f32)
    (h1 : BlkX.ShapeCasts BlkX1) (h2 : BlkY.ShapeCasts BlkY1) (h3 : BlkX1.Broadcasts BlkO) (h4 : BlkY1.Broadcasts BlkO)
    (j : BlkO.Idx) :
    mulf (F := F) (φ := .f32) (broadcastTo BlkO (shapeCast BlkX1 x0 h1) h3) (broadcastTo BlkO (shapeCast BlkY1 x1 h2) h4) j
      = FloatOps.mulf (x0 (ix2 (j 0) (j 1))) (x1 (ix2 (j 0) (j 2))) := by
  show FloatOps.mulf (broadcastTo BlkO (shapeCast BlkX1 x0 h1) h3 j) (broadcastTo BlkO (shapeCast BlkY1 x1 h2) h4 j) = _
  rw [bcastX_apply, bcastY_apply]

end Cert.Outer

end
-- ==== Proof.OuterKernel.lean ====
/-
  The kernel computes the outer-product cube, block by block, and then lays it out flat.

  The grid is 32 × 2. At point (p, q) the kernel is given rows 128p … 128p+127 of `x` restricted to columns
  128q … 128q+127, the same rows of `y` with all 256 columns, and writes block (p, q, 0) of the cube: at block index
  (r, a, b) the product of the `x` block at (r, a) and the `y` block at (r, b). That is the cube `outer x y` read
  through the block, because the row offset of all three blocks is 128p, the column offset of the `x` block is the
  middle offset 128q of the output block, and the `y` block and the output block both start at column 0.
  The 64 blocks tile the cube, so after the region the cube's array is `outer x y`; the one host operation after the
  region reshapes it to [4096, 65536].
-/
import proofs.«122825_j17746804867414_1_alg».proof.Proof.Gen.KernelIdeal.Frame
import proofs.«122825_j17746804867414_1_alg».proof.Proof.OuterSpec
import Idealize.ShloMosaic.Lib.Pipeline.Value
import Idealize.ShloMosaic.Lib.StableHlo.Run

set_option maxRecDepth 16384

noncomputable section

namespace Cert.KernelIdeal.OuterValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's one stored value at a block index: the `x` block at (r, a) times the `y` block at (r, b). -/
theorem payload_apply (x0 : Vec F S128x128 .f32) (x1 : Vec F S128x256 .f32) (j : S128x128x256.Idx) :
    k0_pay1 x0 x1 j = FloatOps.mulf (x0 (ix2 (j 0) (j 1))) (x1 (ix2 (j 0) (j 2))) :=
  Cert.Outer.blockProduct_apply x0 x1 _ _ _ _ j

/-- How the three windows' block indices are related at every grid point: `x`'s block moves with the output's on both
    of its axes, `y`'s on the row axis only, and `y`'s column block and the output's last block index are 0. -/
theorem index_facts : ∀ t : Fin cfg0.N, win0_0.index t (0 : Fin 2) = win0_2.index t (0 : Fin 3)
    ∧ win0_0.index t (1 : Fin 2) = win0_2.index t (1 : Fin 3)
    ∧ win0_1.index t (0 : Fin 2) = win0_2.index t (0 : Fin 3)
    ∧ win0_1.index t (1 : Fin 2) = 0
    ∧ win0_2.index t (2 : Fin 3) = 0 :=
  (by decide +kernel : ∀ t : Fin grid0.N, _)

/-- Every block (p, q, 0) of the cube is some grid point's. -/
theorem index_onto : ∀ (p : Fin 32) (q : Fin 2), ∃ t : Fin cfg0.N, win0_2.index t = ![p.val, q.val, 0] :=
  (by decide +kernel : ∀ (p : Fin 32) (q : Fin 2), ∃ t : Fin grid0.N, win0_2.index t = ![p.val, q.val, 0])

/-- What point `t` writes back is block `t` of the cube of the argument arrays. -/
theorem flushed_eq (c : Dev nD) (t : Fin cfg0.N) :
    (dats m 0 c).flushed 2 t
      = ((cfg0.win 2).blk t).view.read (Elt F) (Cert.Outer.outer (F := F) (V m c main_arg0) (V m c main_arg1)) := by
  show (cfg0.win 2).cut (grid0.coords t) ((dats m 0 c).after 2 t) = _
  rw [after0_2]
  unfold out0_2
  rw [View.canon_unit_zero zeros3]
  simp only [View.ld_unit_zero (S := S128x128) zeros2, View.ld_unit_zero (S := S128x256) zeros2]
  obtain ⟨e0, e1, e2, e3, e4⟩ := index_facts t
  funext j
  refine (payload_apply (iblk m c 0 t) (iblk m c 1 t) j).trans ?_
  show FloatOps.mulf (V m c main_arg0 (((cfg0.win 0).blk t).view.emb (ix2 (j 0) (j 1))))
      (V m c main_arg1 (((cfg0.win 1).blk t).view.emb (ix2 (j 0) (j 2))))
    = FloatOps.mulf (V m c main_arg0 (ix2 ((((cfg0.win 2).blk t).view.emb j) 0) ((((cfg0.win 2).blk t).view.emb j) 1)))
      (V m c main_arg1 (ix2 ((((cfg0.win 2).blk t).view.emb j) 0) ((((cfg0.win 2).blk t).view.emb j) 2)))
  have hx : ((cfg0.win 0).blk t).view.emb (ix2 (j 0) (j 1))
      = ix2 ((((cfg0.win 2).blk t).view.emb j) 0) ((((cfg0.win 2).blk t).view.emb j) 1) := by
    funext a; apply Fin.ext
    match a with
    | ⟨0, _⟩ => show win0_0.index t (0 : Fin 2) * 128 + 1 * (j 0).val = win0_2.index t (0 : Fin 3) * 128 + 1 * (j 0).val; omega
    | ⟨1, _⟩ => show win0_0.index t (1 : Fin 2) * 128 + 1 * (j 1).val = win0_2.index t (1 : Fin 3) * 128 + 1 * (j 1).val; omega
  have hy : ((cfg0.win 1).blk t).view.emb (ix2 (j 0) (j 2))
      = ix2 ((((cfg0.win 2).blk t).view.emb j) 0) ((((cfg0.win 2).blk t).view.emb j) 2) := by
    funext a; apply Fin.ext
    match a with
    | ⟨0, _⟩ => show win0_1.index t (0 : Fin 2) * 128 + 1 * (j 0).val = win0_2.index t (0 : Fin 3) * 128 + 1 * (j 0).val; omega
    | ⟨1, _⟩ => show win0_1.index t (1 : Fin 2) * 256 + 1 * (j 2).val = win0_2.index t (2 : Fin 3) * 256 + 1 * (j 2).val; omega
  rw [hx, hy]
  rfl

/-- An index of the cube is in point `t`'s block iff each coordinate is in the block's range on its axis. -/
theorem mem_block (t : Fin cfg0.N) (i : S4096x256x256.Idx) :
    i ∈ ((cfg0.win 2).blk t).view.set ↔ ∀ a : Fin 3, win0_2.index t a * S128x128x256.size a ≤ (i a).val
      ∧ (i a).val < win0_2.index t a * S128x128x256.size a + S128x128x256.size a := by
  show i ∈ ((View.whole main_v0).slice (win0_2.rect t)).set ↔ _
  rw [View.set_slice_whole, Rect.mem_set_unit]
  exact Iff.rfl

/-- The blocks tile the cube: (i, a, b) lies in block (i / 128, a / 128, 0). -/
theorem covered (i : S4096x256x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  have hi2 : (i 2).val < 256 := (i 2).isLt
  obtain ⟨t, ht⟩ := index_onto ⟨(i 0).val / 128, by omega⟩ ⟨(i 1).val / 128, by omega⟩
  have q0 : win0_2.index t (0 : Fin 3) = (i 0).val / 128 := congrFun ht 0
  have q1 : win0_2.index t (1 : Fin 3) = (i 1).val / 128 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 128 ≤ (i 0).val ∧ (i 0).val < win0_2.index t (0 : Fin 3) * 128 + 128; omega
  | ⟨1, _⟩ => show win0_2.index t (1 : Fin 3) * 128 ≤ (i 1).val ∧ (i 1).val < win0_2.index t (1 : Fin 3) * 128 + 128; omega
  | ⟨2, _⟩ => show win0_2.index t (2 : Fin 3) * 256 ≤ (i 2).val ∧ (i 2).val < win0_2.index t (2 : Fin 3) * 256 + 256; omega

/-- After the region the cube's array is the outer product of the arguments. -/
theorem cube_eq (c : Dev nD) :
    (dats m 0 c).arrAt 2 cfg0.N
      = Cert.Outer.outer (F := F) (m ((c : Thread nD τ).loc main_arg0)) (m ((c : Thread nD τ).loc main_arg1)) :=
  (dats m 0 c).arrAt_eq_of_cover 2 _ (fun t _ => flushed_eq m c t) covered

/-- The reshape after the region lays the cube out flat. -/
theorem tail_eq (c : Dev nD) :
    Pipeline.afterTail₀ cfgs (dats m) 0 (V0 m) [hostOps1] c main_v1
      = Cert.Outer.flatOuter (F := F) shapeCasts_S4096x256x256_S4096x65536
          (m ((c : Thread nD τ).loc main_arg0)) (m ((c : Thread nD τ).loc main_arg1)) := by
  unfold Pipeline.afterTail₀
  show StableHlo.after hostOps1 _ (Proc.devRef .tc main_v1) = _
  after_results
  refine Eq.trans (b := shapeCast S4096x65536 (Pipeline.withArrays spec0 c (V0 m c) (fun w => (dats m 0 c).arrAt w cfg0.N)
    (Proc.devRef .tc (Pipeline.arrRef spec0 2))) shapeCasts_S4096x256x256_S4096x65536) rfl ?_
  rw [Pipeline.withArrays_arr spec0 launch0.win.arr_inj c _ _ 2, cube_eq]
  rfl

/-- The kernel's run, read: the result is the outer product laid out flat, the arguments are unchanged. -/
theorem run : θ_run defs (onTc (τ := τ) (main (F := F))) ⟨m, fun _ => 0, ρ⟩ fun r => ∀ c : Dev nD,
      r.2.mem ((c : Thread nD τ).loc main_v1)
        = Cert.Outer.flatOuter (F := F) shapeCasts_S4096x256x256_S4096x65536
            (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v1 (Pipeline.mem_restRefs_of main_v1 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.OuterValue

end
-- ==== Proof.OuterReference.lean ====
/-
  The reference computes the outer-product cube.

  The reference broadcasts `x` from [4096, 256] through [4096, 256, 1] to [4096, 256, 256] (so that (i, a, b) reads
  `x (i, a)`), broadcasts `y` through [4096, 1, 256] to the same shape (so that (i, a, b) reads `y (i, b)`), multiplies
  the two element by element and reshapes. Before the reshape that is `Cert.Outer.outer x y`, index by index; the
  reshape is the same row-major relayout on both sides.
-/
import proofs.«122825_j17746804867414_1_alg».proof.Proof.Gen.ReferenceIdeal.Read
import proofs.«122825_j17746804867414_1_alg».proof.Proof.OuterSpec

noncomputable section

namespace Cert.ReferenceIdeal.OuterValue

open Cert.ReferenceIdeal Cert.ReferenceIdeal.Gen Cert.ReferenceIdeal.Read Idealize.ShloMosaic Idealize.ShloMosaic.ValueIdx

variable {F : FTy → Type} [FloatOps F]

/-- The two chains of broadcasts read `x` at (i, a) and `y` at (i, b). -/
theorem idx_x (i : S4096x256x256.Idx) : idx_main_v0 (idx_main_v2 i) = ix2 (i 0) (i 1) :=
  funext fun a => Fin.ext (by match a with | ⟨0, _⟩ => rfl | ⟨1, _⟩ => rfl)
theorem idx_y (i : S4096x256x256.Idx) : idx_main_v1 (idx_main_v3 i) = ix2 (i 0) (i 2) :=
  funext fun a => Fin.ext (by match a with | ⟨0, _⟩ => rfl | ⟨1, _⟩ => rfl)

/-- The product before the reshape is the cube. -/
theorem product_eq_outer (x y : (⟨S4096x256, .f32⟩ : BufTy).Contents (Elt F)) :
    val_main_v4 (F := F) x y = Cert.Outer.outer (F := F) x y := by
  funext i
  rw [val_main_v4_apply, val_main_v2_apply, val_main_v0_apply, val_main_v3_apply, val_main_v1_apply, idx_x, idx_y]
  rfl

/-- The reference's result is the cube laid out row-major. -/
theorem result_eq (x y : (⟨S4096x256, .f32⟩ : BufTy).Contents (Elt F)) :
    val_main_v5 (F := F) x y = Cert.Outer.flatOuter (F := F) shapeCasts_S4096x256x256_S4096x65536 x y := by
  unfold val_main_v5 Cert.Outer.flatOuter
  rw [product_eq_outer]

end Cert.ReferenceIdeal.OuterValue

end
-- ==== Proof.lean ====
/-
  The kernel and the reference both return the batched outer product r[i, a·256 + b] = x[i, a] · y[i, b].

  The kernel computes the cube [4096, 256, 256] in 64 blocks of [128, 128, 256] (one broadcast multiplication per
  block) and reshapes it; the reference broadcasts both arguments to the cube, multiplies, and reshapes. Both are the
  one function `Cert.Outer.flatOuter` of the arguments (Proof/OuterSpec.lean): the kernel's run is read in
  Proof/OuterKernel.lean, the reference's in Proof/OuterReference.lean. Each element is a single product of one entry of
  `x` and one of `y` on both sides, so the two results agree as extended reals without any algebraic law, and the
  finiteness of the inputs is not used. The idealization rewrote nothing, so `preserves` is trivial.
-/
import proofs.«122825_j17746804867414_1_alg».proof.Defs
import proofs.«122825_j17746804867414_1_alg».proof.Proof.Gen.Kernel
import proofs.«122825_j17746804867414_1_alg».proof.Proof.Gen.Kernel.Skeleton
import proofs.«122825_j17746804867414_1_alg».proof.Proof.Gen.Kernel.Launch
import proofs.«122825_j17746804867414_1_alg».proof.Proof.Gen.Kernel.Points
import proofs.«122825_j17746804867414_1_alg».proof.Proof.Gen.Kernel.Frame
import proofs.«122825_j17746804867414_1_alg».proof.Proof.Gen.KernelIdeal
import proofs.«122825_j17746804867414_1_alg».proof.Proof.Gen.KernelIdeal.Skeleton
import proofs.«122825_j17746804867414_1_alg».proof.Proof.Gen.KernelIdeal.Launch
import proofs.«122825_j17746804867414_1_alg».proof.Proof.Gen.KernelIdeal.Points
import proofs.«122825_j17746804867414_1_alg».proof.Proof.Gen.KernelIdeal.Frame
import proofs.«122825_j17746804867414_1_alg».proof.Proof.Gen.ReferenceIdeal
import proofs.«122825_j17746804867414_1_alg».proof.Proof.Gen.Pre_finite_inputs
import proofs.«122825_j17746804867414_1_alg».proof.Proof.Gen.ReferenceIdeal.Run
import proofs.«122825_j17746804867414_1_alg».proof.Proof.Gen.ReferenceIdeal.Read
import proofs.«122825_j17746804867414_1_alg».proof.Proof.OuterSpec
import proofs.«122825_j17746804867414_1_alg».proof.Proof.OuterKernel
import proofs.«122825_j17746804867414_1_alg».proof.Proof.OuterReference
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and `y`, both programs end with the flattened outer product of `x` and `y`. -/
theorem algebraic : Cert.algebraic_KernelIdeal_ReferenceIdeal := by
  intro m ρ m' ρ' _ hagree
  refine ⟨_, Cert.KernelIdeal.OuterValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.OuterValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
